-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v22)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v22) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v23) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x4096 : Shape := ⟨2, ![4096, 4096]⟩
abbrev S256x24576 : Shape := ⟨2, ![256, 24576]⟩
abbrev S32x12288 : Shape := ⟨2, ![32, 12288]⟩
abbrev S12288 : Shape := ⟨1, ![12288]⟩
abbrev S_ : Shape := ⟨0, ![]⟩

class Facts : Prop where
  bcast_S_S4096x4096 : S_.BroadcastsInDim S4096x4096 (![] : Fin 0 → Fin S4096x4096.rank)
  reducesTo_S4096x4096_S_d0_1 : S4096x4096.ReducesTo [0, 1] S_
  h_S_ : 0 < S_.numel
  bcast_S_S32x12288 : S_.BroadcastsInDim S32x12288 (![] : Fin 0 → Fin S32x12288.rank)
  reducesTo_S32x12288_S_d0_1 : S32x12288.ReducesTo [0, 1] S_
  bcast_S_S12288 : S_.BroadcastsInDim S12288 (![] : Fin 0 → Fin S12288.rank)
  reducesTo_S12288_S_d0 : S12288.ReducesTo [0] S_

variable [Facts]

def fn {F : FTy → Type} [FloatOps F] (main_arg0 : FVec F S4096x4096 .f32) (main_arg1 : IVec S256x24576 32) (main_arg2 : FVec F S32x12288 .f32) (main_arg3 : FVec F S12288 .f32) : IVec S_ 1 :=
  let main_v0 : FVec F S4096x4096 .f32 := Host.absf main_arg0
  let main_cst : FVec F S_ .f32 := constant S_ .f32 0x7F800000#32
  let main_v1 : FVec F S4096x4096 .f32 := broadcastInDim S4096x4096 ![] bcast_S_S4096x4096 main_cst
  let main_v2 : IVec S4096x4096 1 := cmpf .olt main_v0 main_v1
  let main_c : IVec S_ 1 := constantI S_ 1 1#1
  let main_v3 : IVec S_ 1 := (fun x v => Host.reduce IntOp.andi x v reducesTo_S4096x4096_S_d0_1 h_S_) main_v2 main_c
  let main_v4 : FVec F S32x12288 .f32 := Host.absf main_arg2
  let main_cst_0 : FVec F S_ .f32 := constant S_ .f32 0x7F800000#32
  let main_v5 : FVec F S32x12288 .f32 := broadcastInDim S32x12288 ![] bcast_S_S32x12288 main_cst_0
  let main_v6 : IVec S32x12288 1 := cmpf .olt main_v4 main_v5
  let main_c_1 : IVec S_ 1 := constantI S_ 1 1#1
  let main_v7 : IVec S_ 1 := (fun x v => Host.reduce IntOp.andi x v reducesTo_S32x12288_S_d0_1 h_S_) main_v6 main_c_1
  let main_v8 : IVec S_ 1 := andi main_v3 main_v7
  let main_v9 : FVec F S12288 .f32 := Host.absf main_arg3
  let main_cst_2 : FVec F S_ .f32 := constant S_ .f32 0x7F800000#32
  let main_v10 : FVec F S12288 .f32 := broadcastInDim S12288 ![] bcast_S_S12288 main_cst_2
  let main_v11 : IVec S12288 1 := cmpf .olt main_v9 main_v10
  let main_c_3 : IVec S_ 1 := constantI S_ 1 1#1
  let main_v12 : IVec S_ 1 := (fun x v => Host.reduce IntOp.andi x v reducesTo_S12288_S_d0 h_S_) main_v11 main_c_3
  let main_v13 : IVec S_ 1 := andi main_v8 main_v12
  main_v13
-- ==== Kernel.lean ====
abbrev S4096x4096 : Shape := ⟨2, ![4096, 4096]⟩
abbrev S256x24576 : Shape := ⟨2, ![256, 24576]⟩
abbrev S32x12288 : Shape := ⟨2, ![32, 12288]⟩
abbrev S12288 : Shape := ⟨1, ![12288]⟩
abbrev S8 : Shape := ⟨1, ![8]⟩
abbrev S_ : Shape := ⟨0, ![]⟩
abbrev S256x12288x2 : Shape := ⟨3, ![256, 12288, 2]⟩
abbrev S256x12288x2x1 : Shape := ⟨4, ![256, 12288, 2, 1]⟩
abbrev S1x1x1x8 : Shape := ⟨4, ![1, 1, 1, 8]⟩
abbrev S256x12288x2x8 : Shape := ⟨4, ![256, 12288, 2, 8]⟩
abbrev S256x12288x16 : Shape := ⟨3, ![256, 12288, 16]⟩
abbrev S256x16x12288 : Shape := ⟨3, ![256, 16, 12288]⟩
abbrev S4096x12288 : Shape := ⟨2, ![4096, 12288]⟩
abbrev S32x128x12288 : Shape := ⟨3, ![32, 128, 12288]⟩
abbrev S1024x1024 : Shape := ⟨2, ![1024, 1024]⟩
abbrev S1024 : Shape := ⟨1, ![1024]⟩
abbrev S1x1024 : Shape := ⟨2, ![1, 1024]⟩

abbrev nBuf : Space → Nat
  | .hbm => 30
  | .vmem => 9
  | .smem => 0
  | _ => 0

abbrev bufTy : (tb : Table) → Fin (tcTables nBuf tb) → BufTy
  | .hbm, ⟨0, _⟩ => ⟨S4096x4096, .f32⟩
  | .hbm, ⟨1, _⟩ => ⟨S256x24576, .i32⟩
  | .hbm, ⟨2, _⟩ => ⟨S32x12288, .f32⟩
  | .hbm, ⟨3, _⟩ => ⟨S12288, .f32⟩
  | .hbm, ⟨4, _⟩ => ⟨S8, .i32⟩
  | .hbm, ⟨5, _⟩ => ⟨S_, .i32⟩
  | .hbm, ⟨6, _⟩ => ⟨S8, .i32⟩
  | .hbm, ⟨7, _⟩ => ⟨S8, .i32⟩
  | .hbm, ⟨8, _⟩ => ⟨S256x12288x2, .i32⟩
  | .hbm, ⟨9, _⟩ => ⟨S256x12288x2x1, .i32⟩
  | .hbm, ⟨10, _⟩ => ⟨S1x1x1x8, .i32⟩
  | .hbm, ⟨11, _⟩ => ⟨S256x12288x2x8, .i32⟩
  | .hbm, ⟨12, _⟩ => ⟨S256x12288x2x8, .i32⟩
  | .hbm, ⟨13, _⟩ => ⟨S256x12288x2x8, .i32⟩
  | .hbm, ⟨14, _⟩ => ⟨S_, .i32⟩
  | .hbm, ⟨15, _⟩ => ⟨S256x12288x2x8, .i32⟩
  | .hbm, ⟨16, _⟩ => ⟨S256x12288x2x8, .i32⟩
  | .hbm, ⟨17, _⟩ => ⟨S256x12288x16, .i32⟩
  | .hbm, ⟨18, _⟩ => ⟨S256x16x12288, .i32⟩
  | .hbm, ⟨19, _⟩ => ⟨S4096x12288, .i32⟩
  | .hbm, ⟨20, _⟩ => ⟨S4096x12288, .f32⟩
  | .hbm, ⟨21, _⟩ => ⟨S_, .f32⟩
  | .hbm, ⟨22, _⟩ => ⟨S4096x12288, .f32⟩
  | .hbm, ⟨23, _⟩ => ⟨S4096x12288, .f32⟩
  | .hbm, ⟨24, _⟩ => ⟨S32x128x12288, .f32⟩
  | .hbm, ⟨25, _⟩ => ⟨S4096x12288, .f32⟩
  | .hbm, ⟨26, _⟩ => ⟨S4096x12288, .f32⟩
  | .hbm, ⟨27, _⟩ => ⟨S4096x12288, .bf16⟩
  | .hbm, ⟨28, _⟩ => ⟨S4096x4096, .bf16⟩
  | .hbm, ⟨29, _⟩ => ⟨S4096x12288, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024, .f32⟩
  | .local _ .vmem, ⟨5, _⟩ => ⟨S1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_c : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_c_0 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_cst : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 12, 4], ![false, false, false]⟩

def k0_cond2 (i : grid0.Coords) : BitVec 1 :=
  let arg2 : BitVec 32 := BitVec.ofNat 32 (i 2).val
  let c3_i32 : BitVec 32 := 3#32
  let v13 : BitVec 1 := Scalar.cmpi .eq arg2 c3_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 1 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

class Facts₀ : Prop where
  bcast_S_S8 : S_.BroadcastsInDim S8 (![] : Fin 0 → Fin S8.rank)
  shapeCasts_S256x24576_S256x12288x2 : S256x24576.ShapeCasts S256x12288x2
  bcast_S256x12288x2_S256x12288x2x1_0_1_2 : S256x12288x2.BroadcastsInDim S256x12288x2x1 (![0, 1, 2] : Fin 3 → Fin S256x12288x2x1.rank)
  bcast_S8_S1x1x1x8_3 : S8.BroadcastsInDim S1x1x1x8 (![3] : Fin 1 → Fin S1x1x1x8.rank)
  bcast_S256x12288x2x1_S256x12288x2x8_0_1_2_3 : S256x12288x2x1.BroadcastsInDim S256x12288x2x8 (![0, 1, 2, 3] : Fin 4 → Fin S256x12288x2x8.rank)
  bcast_S1x1x1x8_S256x12288x2x8_0_1_2_3 : S1x1x1x8.BroadcastsInDim S256x12288x2x8 (![0, 1, 2, 3] : Fin 4 → Fin S256x12288x2x8.rank)
  bcast_S_S256x12288x2x8 : S_.BroadcastsInDim S256x12288x2x8 (![] : Fin 0 → Fin S256x12288x2x8.rank)
  shapeCasts_S256x12288x2x8_S256x12288x16 : S256x12288x2x8.ShapeCasts S256x12288x16
  transposes_S256x12288x16_S256x16x12288_0_2_1 : S256x12288x16.Transposes [0, 2, 1] S256x16x12288
  shapeCasts_S256x16x12288_S4096x12288 : S256x16x12288.ShapeCasts S4096x12288
  bcast_S_S4096x12288 : S_.BroadcastsInDim S4096x12288 (![] : Fin 0 → Fin S4096x12288.rank)
  bcast_S32x12288_S32x128x12288_0_2 : S32x12288.BroadcastsInDim S32x128x12288 (![0, 2] : Fin 2 → Fin S32x128x12288.rank)
  shapeCasts_S32x128x12288_S4096x12288 : S32x128x12288.ShapeCasts S4096x12288
  bitsLt_bf16_f32 : FTy.bits .bf16 < FTy.bits .f32
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1024_S1024_0 : ∀ a, (![0] : Fin 1 → Nat) a + S1024.size a ≤ S1024.size a
  h_S1024 : 0 < S1024.numel
  shapeCasts_S1024_S1x1024 : S1024.ShapeCasts S1x1024
  broadcasts_S1x1024_S1024x1024 : S1x1024.Broadcasts S1024x1024
  dot_S1024x1024_S1024x1024_S1024x1024_1_0_0_1_n_n_wf : DotDims.WF S1024x1024 S1024x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S4096x4096.size a
  hwx0_0 : ∀ i : grid0.Coords, EltTy.bits .bf16 = 32 ∨ (Rect.block (s := S4096x4096) S1024x1024.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S4096x12288.size a
  hwx0_1 : ∀ i : grid0.Coords, EltTy.bits .bf16 = 32 ∨ (Rect.block (s := S4096x12288) S1024x1024.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024.size a ≤ S12288.size a
  hwx0_2 : ∀ i : grid0.Coords, EltTy.bits .f32 = 32 ∨ (Rect.block (s := S12288) S1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S4096x12288.size a
  hwx0_3 : ∀ i : grid0.Coords, EltTy.bits .f32 = 32 ∨ (Rect.block (s := S4096x12288) S1024x1024.size (cc0_transform_3 i) (hinb0_3 i)).WholeWords (EltTy.packing .f32)

variable [Facts₀]

def dot_S1024x1024_S1024x1024_S1024x1024_1_0_0_1_n_n : DotDims S1024x1024 S1024x1024 S1024x1024 where
  lhsContracting := [1]
  rhsContracting := [0]
  lhsNonContracting := [0]
  rhsNonContracting := [1]
  lhsBatch := []
  rhsBatch := []
  wf := dot_S1024x1024_S1024x1024_S1024x1024_1_0_0_1_n_n_wf

abbrev win0_0 : Pipeline.Window sig grid0 :=
  Pipeline.Window.ofSpec (Memref.whole main_v21) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v20) S1024x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v22) S1024x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== ReferenceIdeal.lean ====
abbrev S4096x4096 : Shape := ⟨2, ![4096, 4096]⟩
abbrev S256x24576 : Shape := ⟨2, ![256, 24576]⟩
abbrev S32x12288 : Shape := ⟨2, ![32, 12288]⟩
abbrev S12288 : Shape := ⟨1, ![12288]⟩
abbrev S8 : Shape := ⟨1, ![8]⟩
abbrev S_ : Shape := ⟨0, ![]⟩
abbrev S256x12288x2 : Shape := ⟨3, ![256, 12288, 2]⟩
abbrev S256x12288x2x1 : Shape := ⟨4, ![256, 12288, 2, 1]⟩
abbrev S1x1x1x8 : Shape := ⟨4, ![1, 1, 1, 8]⟩
abbrev S256x12288x2x8 : Shape := ⟨4, ![256, 12288, 2, 8]⟩
abbrev S256x12288x16 : Shape := ⟨3, ![256, 12288, 16]⟩
abbrev S256x16x12288 : Shape := ⟨3, ![256, 16, 12288]⟩
abbrev S4096x12288 : Shape := ⟨2, ![4096, 12288]⟩
abbrev S32x128x12288 : Shape := ⟨3, ![32, 128, 12288]⟩
abbrev S1x12288 : Shape := ⟨2, ![1, 12288]⟩

abbrev nBuf : Space → Nat
  | .hbm => 31
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S256x24576, .i32⟩
  | .hbm, ⟨2, _⟩ => ⟨S32x12288, .f32⟩
  | .hbm, ⟨3, _⟩ => ⟨S12288, .f32⟩
  | .hbm, ⟨4, _⟩ => ⟨S8, .i32⟩
  | .hbm, ⟨5, _⟩ => ⟨S_, .i32⟩
  | .hbm, ⟨6, _⟩ => ⟨S8, .i32⟩
  | .hbm, ⟨7, _⟩ => ⟨S8, .i32⟩
  | .hbm, ⟨8, _⟩ => ⟨S256x12288x2, .i32⟩
  | .hbm, ⟨9, _⟩ => ⟨S256x12288x2x1, .i32⟩
  | .hbm, ⟨10, _⟩ => ⟨S1x1x1x8, .i32⟩
  | .hbm, ⟨11, _⟩ => ⟨S256x12288x2x8, .i32⟩
  | .hbm, ⟨12, _⟩ => ⟨S256x12288x2x8, .i32⟩
  | .hbm, ⟨13, _⟩ => ⟨S256x12288x2x8, .i32⟩
  | .hbm, ⟨14, _⟩ => ⟨S_, .i32⟩
  | .hbm, ⟨15, _⟩ => ⟨S256x12288x2x8, .i32⟩
  | .hbm, ⟨16, _⟩ => ⟨S256x12288x2x8, .i32⟩
  | .hbm, ⟨17, _⟩ => ⟨S256x12288x16, .i32⟩
  | .hbm, ⟨18, _⟩ => ⟨S256x16x12288, .i32⟩
  | .hbm, ⟨19, _⟩ => ⟨S4096x12288, .i32⟩
  | .hbm, ⟨20, _⟩ => ⟨S4096x12288, .f32⟩
  | .hbm, ⟨21, _⟩ => ⟨S_, .f32⟩
  | .hbm, ⟨22, _⟩ => ⟨S4096x12288, .f32⟩
  | .hbm, ⟨23, _⟩ => ⟨S4096x12288, .f32⟩
  | .hbm, ⟨24, _⟩ => ⟨S32x128x12288, .f32⟩
  | .hbm, ⟨25, _⟩ => ⟨S4096x12288, .f32⟩
  | .hbm, ⟨26, _⟩ => ⟨S4096x12288, .f32⟩
  | .hbm, ⟨27, _⟩ => ⟨S4096x12288, .f32⟩
  | .hbm, ⟨28, _⟩ => ⟨S1x12288, .f32⟩
  | .hbm, ⟨29, _⟩ => ⟨S4096x12288, .f32⟩
  | .hbm, ⟨30, _⟩ => ⟨S4096x12288, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_c : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_c_0 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_cst : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩

abbrev nD : Nat := 1
abbrev τ : Topo := Topo.v7x

variable {F : FTy → Type} [FloatOps F]

class Facts₀ : Prop where
  bcast_S_S8 : S_.BroadcastsInDim S8 (![] : Fin 0 → Fin S8.rank)
  shapeCasts_S256x24576_S256x12288x2 : S256x24576.ShapeCasts S256x12288x2
  bcast_S256x12288x2_S256x12288x2x1_0_1_2 : S256x12288x2.BroadcastsInDim S256x12288x2x1 (![0, 1, 2] : Fin 3 → Fin S256x12288x2x1.rank)
  bcast_S8_S1x1x1x8_3 : S8.BroadcastsInDim S1x1x1x8 (![3] : Fin 1 → Fin S1x1x1x8.rank)
  bcast_S256x12288x2x1_S256x12288x2x8_0_1_2_3 : S256x12288x2x1.BroadcastsInDim S256x12288x2x8 (![0, 1, 2, 3] : Fin 4 → Fin S256x12288x2x8.rank)
  bcast_S1x1x1x8_S256x12288x2x8_0_1_2_3 : S1x1x1x8.BroadcastsInDim S256x12288x2x8 (![0, 1, 2, 3] : Fin 4 → Fin S256x12288x2x8.rank)
  bcast_S_S256x12288x2x8 : S_.BroadcastsInDim S256x12288x2x8 (![] : Fin 0 → Fin S256x12288x2x8.rank)
  shapeCasts_S256x12288x2x8_S256x12288x16 : S256x12288x2x8.ShapeCasts S256x12288x16
  transposes_S256x12288x16_S256x16x12288_0_2_1 : S256x12288x16.Transposes [0, 2, 1] S256x16x12288
  shapeCasts_S256x16x12288_S4096x12288 : S256x16x12288.ShapeCasts S4096x12288
  bcast_S_S4096x12288 : S_.BroadcastsInDim S4096x12288 (![] : Fin 0 → Fin S4096x12288.rank)
  bcast_S32x12288_S32x128x12288_0_2 : S32x12288.BroadcastsInDim S32x128x12288 (![0, 2] : Fin 2 → Fin S32x128x12288.rank)
  shapeCasts_S32x128x12288_S4096x12288 : S32x128x12288.ShapeCasts S4096x12288
  bcast_S12288_S1x12288_1 : S12288.BroadcastsInDim S1x12288 (![1] : Fin 1 → Fin S1x12288.rank)
  bcast_S1x12288_S4096x12288_0_1 : S1x12288.BroadcastsInDim S4096x12288 (![0, 1] : Fin 2 → Fin S4096x12288.rank)
  dot_S4096x4096_S4096x12288_S4096x12288_1_0_0_1_n_n_wf : DotDims.WF S4096x4096 S4096x12288 S4096x12288 [1] [0] [0] [1] [] []

variable [Facts₀]

def dot_S4096x4096_S4096x12288_S4096x12288_1_0_0_1_n_n : DotDims S4096x4096 S4096x12288 S4096x12288 where
  lhsContracting := [1]
  rhsContracting := [0]
  lhsNonContracting := [0]
  rhsNonContracting := [1]
  lhsBatch := []
  rhsBatch := []
  wf := dot_S4096x4096_S4096x12288_S4096x12288_1_0_0_1_n_n_wf

class Facts : Prop extends Facts₀ where

variable [Facts]
-- ==== Proof.Pieces.lean ====
/-
  What each control case of the kernel body leaves behind, as values of its inputs.

  The body keeps an accumulator in a scratch block. At the first step of a run along the contraction axis it stores
  zero there, reads it back and adds the product of the two input blocks; at a later step it adds the product to what
  the step before left; at the last step it also writes the accumulator plus the bias block into the output block.
-/
import proofs.«416958_j58128087384233_1_alg».proof.Proof.Gen.KernelIdeal.Frame
import Idealize.ShloMosaic.Lib.Pipeline.Value
import Idealize.ShloMosaic.Lib.Tactic

noncomputable section

namespace Cert.KernelPieces

open Idealize.ShloMosaic Idealize.ShloMosaic.TcCoe Idealize.SL.Sem Cert.KernelIdeal Cert.KernelIdeal.Gen

variable {F : FTy → Type} [FloatOps F]

theorem hz : (![0, 0] : Fin 2 → Nat) = fun _ => 0 := funext fun a => by fin_cases a <;> rfl
theorem hz1 : (![0] : Fin 1 → Nat) = fun _ => 0 := funext fun a => by fin_cases a; rfl

/-- A middle step: the scratch ends at the update of what the step before left. -/
theorem scratch_B (c : Dev nD) (i : grid0.Coords) (a3 : Memref sig .tc .vmem S1024x1024 .bf16) (h3 : a3.IsWhole) (a4 : Memref sig .tc .vmem S1024x1024 .bf16) (h4 : a4.IsWhole) (a5 : Memref sig .tc .vmem S1024 .f32) (h5 : a5.IsWhole) (a6 : Memref sig .tc .vmem S1024x1024 .f32) (h6 : a6.IsWhole) (a7 : Memref sig .tc .vmem S1024x1024 .f32) (h7 : a7.IsWhole) (hc0 : ¬cond0_0 i) (hc1 : ¬cond0_1 i)
    (x0 x1 : Vec F S1024x1024 .bf16) (x2 : Vec F S1024 .f32) (xs0 : Vec F S1024x1024 .f32) :
    sout0_B_0 c i a3 h3 a4 h4 a5 h5 a6 h6 a7 h7 hc0 hc1 x0 x1 x2 xs0 = k0_pay2 xs0 x0 x1 := by
  unfold sout0_B_0
  rw [View.read_writes_eq_canon _ _ _ (scover0_B_0 c i a3 h3 a4 h4 a5 h5 a6 h6 a7 h7 hc0 hc1 x0 x1 x2 xs0)]
  unfold kernelRun0_B
  dsimp only
  sl_unfold_words
  rw [View.canon_unit_zero hz]
  simp only [View.readAt_eq_ld, h3.read_unread, h4.read_unread, h7.read_unread, View.ld_unit_zero (S := S1024x1024) hz]

/-- The last step leaves the same update in the scratch, -/
theorem scratch_C (c : Dev nD) (i : grid0.Coords) (a3 : Memref sig .tc .vmem S1024x1024 .bf16) (h3 : a3.IsWhole) (a4 : Memref sig .tc .vmem S1024x1024 .bf16) (h4 : a4.IsWhole) (a5 : Memref sig .tc .vmem S1024 .f32) (h5 : a5.IsWhole) (a6 : Memref sig .tc .vmem S1024x1024 .f32) (h6 : a6.IsWhole) (a7 : Memref sig .tc .vmem S1024x1024 .f32) (h7 : a7.IsWhole) (hc0 : ¬cond0_0 i) (hc1 : cond0_1 i)
    (x0 x1 : Vec F S1024x1024 .bf16) (x2 : Vec F S1024 .f32) (xs0 : Vec F S1024x1024 .f32) :
    sout0_C_0 c i a3 h3 a4 h4 a5 h5 a6 h6 a7 h7 hc0 hc1 x0 x1 x2 xs0 = k0_pay2 xs0 x0 x1 := by
  unfold sout0_C_0
  rw [View.read_writes_eq_canon _ _ _ (scover0_C_0 c i a3 h3 a4 h4 a5 h5 a6 h6 a7 h7 hc0 hc1 x0 x1 x2 xs0)]
  unfold kernelRun0_C
  dsimp only
  sl_unfold_words
  rw [View.canon_unit_zero hz]
  simp only [View.readAt_eq_ld, h3.read_unread, h4.read_unread, h7.read_unread, View.ld_unit_zero (S := S1024x1024) hz]

/-- and stores that update plus the bias block into the output block. -/
theorem out_C (c : Dev nD) (i : grid0.Coords) (a3 : Memref sig .tc .vmem S1024x1024 .bf16) (h3 : a3.IsWhole) (a4 : Memref sig .tc .vmem S1024x1024 .bf16) (h4 : a4.IsWhole) (a5 : Memref sig .tc .vmem S1024 .f32) (h5 : a5.IsWhole) (a6 : Memref sig .tc .vmem S1024x1024 .f32) (h6 : a6.IsWhole) (a7 : Memref sig .tc .vmem S1024x1024 .f32) (h7 : a7.IsWhole) (hc0 : ¬cond0_0 i) (hc1 : cond0_1 i)
    (x0 x1 : Vec F S1024x1024 .bf16) (x2 : Vec F S1024 .f32) (xs0 : Vec F S1024x1024 .f32) :
    out0_C_3 c i a3 h3 a4 h4 a5 h5 a6 h6 a7 h7 hc0 hc1 x0 x1 x2 xs0 = k0_pay3 (k0_pay2 xs0 x0 x1) x2 := by
  unfold out0_C_3
  rw [View.read_writes_eq_canon _ _ _ (cover0_C_3 c i a3 h3 a4 h4 a5 h5 a6 h6 a7 h7 hc0 hc1 x0 x1 x2 xs0)]
  unfold kernelRun0_C
  dsimp only
  sl_unfold_words
  rw [View.canon_unit_zero hz]
  simp only [View.readAt_eq_ld, h3.read_unread, h4.read_unread, h5.read_unread, h7.read_unread, View.ld_unit_zero (S := S1024x1024) hz, View.ld_unit_zero (S := S1024) hz1, View.readCov_unit_zero (S := S1024x1024) _ hz]

/-- The first step: zero is stored, read back, and the product added. -/
theorem scratch_A (c : Dev nD) (i : grid0.Coords) (a3 : Memref sig .tc .vmem S1024x1024 .bf16) (h3 : a3.IsWhole) (a4 : Memref sig .tc .vmem S1024x1024 .bf16) (h4 : a4.IsWhole) (a5 : Memref sig .tc .vmem S1024 .f32) (h5 : a5.IsWhole) (a6 : Memref sig .tc .vmem S1024x1024 .f32) (h6 : a6.IsWhole) (a7 : Memref sig .tc .vmem S1024x1024 .f32) (h7 : a7.IsWhole) (hc0 : cond0_0 i) (hc1 : ¬cond0_1 i)
    (x0 x1 : Vec F S1024x1024 .bf16) (x2 : Vec F S1024 .f32) :
    sout0_A_0 c i a3 h3 a4 h4 a5 h5 a6 h6 a7 h7 hc0 hc1 x0 x1 x2 = k0_pay2 k0_pay1 x0 x1 := by
  unfold sout0_A_0
  rw [View.read_writes_eq_canon _ _ _ (scover0_A_0 c i a3 h3 a4 h4 a5 h5 a6 h6 a7 h7 hc0 hc1 x0 x1 x2)]
  unfold kernelRun0_A
  dsimp only
  sl_unfold_words
  rw [View.canon_cons_unit_zero (S := S1024x1024) hz, View.readCov_unit_zero (S := S1024x1024) _ hz]
  simp only [View.readAt_eq_ld, h3.read_unread, h4.read_unread, View.ld_unit_zero (S := S1024x1024) hz]

end Cert.KernelPieces

end
-- ==== Proof.LibPlainDot.lean ====
/-
  A plain matrix product read at an element, on the extended reals.

  For the dimension numbers of a plain product — `[M, K]` by `[K, N]`, the left operand's axis 1 contracted with the
  right operand's axis 0, no batch axes — the operand indices at output element `(a, b)` and contraction coordinate
  `k` are `(a, k)` and `(k, b)`. So a product accumulated into the zero splat is, at `(a, b)`, the plain sum
  `∑ k : Fin K, lhs (a, k) * rhs (k, b)`, and so is the host's `dot_general`.
-/
import Idealize.ShloMosaic.PureOps.Ideal.Laws
import Idealize.ShloMosaic.Lib.ValueIdx

noncomputable section

open scoped BigOperators

namespace Cert.Lib

open Idealize.ShloMosaic Idealize.ShloMosaic.ValueIdx

/-- The dimension numbers of a plain product `[M, K] × [K, N] → [M, N]`: `lhs_contracting = [1]`,
    `rhs_contracting = [0]`, the other axes the result's, no batch axes. At a printed record every field is `rfl`. -/
structure PlainDot {M K N : Nat} (d : DotDims ⟨2, ![M, K]⟩ ⟨2, ![K, N]⟩ ⟨2, ![M, N]⟩) : Prop where
  lc : d.lhsContracting = [1]
  rc : d.rhsContracting = [0]
  ln : d.lhsNonContracting = [0]
  rn : d.rhsNonContracting = [1]
  lb : d.lhsBatch = []
  rb : d.rhsBatch = []

variable {M K N : Nat} {d : DotDims ⟨2, ![M, K]⟩ ⟨2, ![K, N]⟩ ⟨2, ![M, N]⟩}

/-- A plain product contracts one axis. -/
theorem PlainDot.rank_contr (hd : PlainDot d) : d.contr.rank = 1 := by
  rw [d.rank_contr, hd.lc]; rfl

/-- The contracted axis has extent `K`. -/
theorem PlainDot.size_contr (hd : PlainDot d) : d.contr.size ⟨0, by rw [hd.rank_contr]; exact Nat.one_pos⟩ = K := by
  obtain ⟨h1, h2, h3, h4, h5, h6⟩ := hd
  obtain ⟨lc, rc, ln, rn, lb, rb, wf⟩ := d
  simp only at h1 h2 h3 h4 h5 h6
  subst h1 h2 h3 h4 h5 h6
  rfl

/-- The left operand's row is the output's row. -/
theorem PlainDot.lhs0 (hd : PlainDot d) (i : (⟨2, ![M, N]⟩ : Shape).Idx) (q : d.contr.Idx) :
    (d.lhsIdx i q 0).val = (i 0).val := by
  obtain ⟨h1, h2, h3, h4, h5, h6⟩ := hd
  obtain ⟨lc, rc, ln, rn, lb, rb, wf⟩ := d
  simp only at h1 h2 h3 h4 h5 h6
  subst h1 h2 h3 h4 h5 h6
  unfold DotDims.lhsIdx
  rw [dif_neg (by simp), dif_pos (by simp)]
  rfl

/-- The left operand's column is the contraction coordinate. -/
theorem PlainDot.lhs1 (hd : PlainDot d) (i : (⟨2, ![M, N]⟩ : Shape).Idx) (q : d.contr.Idx) :
    (d.lhsIdx i q 1).val = (q ⟨0, by rw [hd.rank_contr]; exact Nat.one_pos⟩).val :=
  d.lhsIdx_val_of_single hd.lc i q

/-- The right operand's row is the contraction coordinate. -/
theorem PlainDot.rhs0 (hd : PlainDot d) (i : (⟨2, ![M, N]⟩ : Shape).Idx) (q : d.contr.Idx) :
    (d.rhsIdx i q 0).val = (q ⟨0, by rw [hd.rank_contr]; exact Nat.one_pos⟩).val :=
  d.rhsIdx_val_of_single hd.rc i q

/-- The right operand's column is the output's column. -/
theorem PlainDot.rhs1 (hd : PlainDot d) (i : (⟨2, ![M, N]⟩ : Shape).Idx) (q : d.contr.Idx) :
    (d.rhsIdx i q 1).val = (i 1).val := by
  obtain ⟨h1, h2, h3, h4, h5, h6⟩ := hd
  obtain ⟨lc, rc, ln, rn, lb, rb, wf⟩ := d
  simp only at h1 h2 h3 h4 h5 h6
  subst h1 h2 h3 h4 h5 h6
  unfold DotDims.rhsIdx
  rw [dif_neg (by simp), dif_pos (by simp)]
  rfl

/-- The contraction of a plain product, re-indexed by the contracted coordinate: at output element `(a, b)` it is
    `∑ k : Fin K, lhs (a, k) * rhs (k, b)`. -/
theorem PlainDot.sum_contr (hd : PlainDot d) (lhs : (⟨2, ![M, K]⟩ : Shape).Idx → EReal)
    (rhs : (⟨2, ![K, N]⟩ : Shape).Idx → EReal) (a : Fin M) (b : Fin N) :
    ∑ q : d.contr.Idx, lhs (d.lhsIdx (ix2 a b) q) * rhs (d.rhsIdx (ix2 a b) q)
      = ∑ k : Fin K, lhs (ix2 a k) * rhs (ix2 k b) := by
  rw [← Equiv.sum_comp (contrEquiv1 d K hd.rank_contr hd.size_contr).symm]
  refine Finset.sum_congr rfl fun k _ => ?_
  have hk := contrEquiv1_symm_val d K hd.rank_contr hd.size_contr k
  have el : d.lhsIdx (ix2 a b) ((contrEquiv1 d K hd.rank_contr hd.size_contr).symm k) = ix2 a k :=
    funext fun x => Fin.ext (by
      match x with
      | ⟨0, _⟩ => exact hd.lhs0 _ _
      | ⟨1, _⟩ => exact (hd.lhs1 _ _).trans hk)
  have er : d.rhsIdx (ix2 a b) ((contrEquiv1 d K hd.rank_contr hd.size_contr).symm k) = ix2 k b :=
    funext fun x => Fin.ext (by
      match x with
      | ⟨0, _⟩ => exact (hd.rhs0 _ _).trans hk
      | ⟨1, _⟩ => exact hd.rhs1 _ _)
  rw [el, er]

/-- A plain product accumulated into the zero splat, at element `(a, b)`: `∑ k, lhs (a, k) * rhs (k, b)`. -/
theorem PlainDot.matmul_zero_apply (hd : PlainDot d) {φ₁ φ₂ : FTy} (prec : Option ContractPrecision)
    (lhs : FVec Ideal ⟨2, ![M, K]⟩ φ₁) (rhs : FVec Ideal ⟨2, ![K, N]⟩ φ₂) (a : Fin M) (b : Fin N) :
    FloatOps.matmul d prec lhs rhs (constant ⟨2, ![M, N]⟩ .f32 0x00000000#32) (ix2 a b)
      = ∑ k : Fin K, lhs (ix2 a k) * rhs (ix2 k b) :=
  (Ideal.matmul_constant_zero_apply d prec lhs rhs (ix2 a b)).trans (hd.sum_contr lhs rhs a b)

/-- The host's plain `dot_general` at element `(a, b)`: the same sum. -/
theorem PlainDot.dotGeneral_apply (hd : PlainDot d) {φ₁ φ₂ : FTy} (prec : Option ContractPrecision) (sched : HostSchedule)
    (lhs : FVec Ideal ⟨2, ![M, K]⟩ φ₁) (rhs : FVec Ideal ⟨2, ![K, N]⟩ φ₂) (a : Fin M) (b : Fin N) :
    FloatOps.dotGeneral d prec sched lhs rhs (ix2 a b) = ∑ k : Fin K, lhs (ix2 a k) * rhs (ix2 k b) :=
  (Ideal.dotGeneral_apply d prec sched lhs rhs (ix2 a b)).trans (hd.sum_contr lhs rhs a b)

end Cert.Lib

end
-- ==== Proof.PayloadAt.lean ====
/-
  The kernel body's two stored values read at an element, on the extended reals.

  The accumulator update is `acc + x0 · x1` with the product taken into a zero accumulator, so at `(p, q)` it is
  `acc (p, q) + ∑ l, x0 (p, l) * x1 (l, q)` (the casts to the same shape are the identity). The output value is the
  accumulator plus the bias block laid out as one row and repeated down the rows: at `(p, q)` it is `v (p, q) + b q`.
-/
import proofs.«416958_j58128087384233_1_alg».proof.Proof.Gen.KernelIdeal.Skeleton
import proofs.«416958_j58128087384233_1_alg».proof.Proof.LibPlainDot
import Idealize.ShloMosaic.Lib.Pipeline.Value
import Idealize.ShloMosaic.Lib.ValueLayout
import Idealize.ShloMosaic.PureOps.Ideal.Laws

noncomputable section

open scoped BigOperators

namespace Cert.KernelAt

open Idealize.ShloMosaic Idealize.ShloMosaic.ValueIdx Cert.KernelIdeal Cert.KernelIdeal.Gen

/-- The body's product is a plain `[1024, 1024] × [1024, 1024]` product. -/
theorem plain : Cert.Lib.PlainDot dot_S1024x1024_S1024x1024_S1024x1024_1_0_0_1_n_n := ⟨rfl, rfl, rfl, rfl, rfl, rfl⟩

/-- The accumulator update at `(p, q)`: the old entry plus the inner product of row `p` of the left block and column
    `q` of the right block. -/
theorem pay2_apply (acc : Vec Ideal S1024x1024 .f32) (x0 x1 : Vec Ideal S1024x1024 .bf16) (p q : Fin 1024) :
    k0_pay2 (F := Ideal) acc x0 x1 (ix2 p q) = acc (ix2 p q) + ∑ l : Fin 1024, x0 (ix2 p l) * x1 (ix2 l q) := by
  unfold k0_pay2
  simp only [shapeCast_self]
  rw [addf_apply]
  exact congrArg (acc (ix2 p q) + ·) (plain.matmul_zero_apply none x0 x1 p q)

/-- The output value at `(p, q)`: the accumulator's entry plus entry `q` of the bias block. -/
theorem pay3_apply (v16 : Vec Ideal S1024x1024 .f32) (v17 : Vec Ideal S1024 .f32) (p q : Fin 1024) :
    k0_pay3 (F := Ideal) v16 v17 (ix2 p q) = v16 (ix2 p q) + v17 (ix1 q) := by
  unfold k0_pay3
  rw [addf_apply]
  refine congrArg (v16 (ix2 p q) + ·) ?_
  exact (broadcastTo_1b_ab_apply _ _ p q).trans (shapeCast_a_1a_apply v17 _ 0 q)

/-- The reset value is zero at every element. -/
theorem pay1_apply (j : S1024x1024.Idx) : k0_pay1 (F := Ideal) j = 0 := by
  unfold k0_pay1
  simp only [shapeCast_self]
  show Ideal.ofBits .f32 0x00000000#32 = 0
  exact Ideal.ofBits_zero_f32

end Cert.KernelAt

end
-- ==== Proof.LibMaskSum.lean ====
/-
  A 0/1-masked contraction over the extended reals is a sum over the mask's support.

  On the extended reals `x * 0 = 0` and `x * 1 = x` for EVERY `x`, the infinities included (the extended reals are a
  commutative monoid with zero), so a mask factor `if g i = k then 1 else 0` inside a sum keeps exactly the terms with
  `g i = k`, with no finiteness side condition. When the index set is `H` consecutive blocks of `B` and `g` is
  "which block" (`c / B`), the support of block `k` is the `B` positions `B * k + b`, and the sum over it is a sum
  over `Fin B`. The one-hot expansion `∑ h, t h * [q = h] = t q` is the same fact read the other way.
-/
import Mathlib.Data.EReal.Inv
import Mathlib.Algebra.BigOperators.Group.Finset.Basic
import Mathlib.Algebra.BigOperators.Group.Finset.Piecewise

open scoped BigOperators

namespace Cert.Lib

/-- A 0/1 mask factor on the extended reals: `(if c then 1 else 0) * a` is `a` where the condition holds and `0`
    where it does not, for every `a` (infinite ones too). -/
theorem mask_mul (c : Prop) [Decidable c] (a : EReal) : (if c then (1 : EReal) else 0) * a = if c then a else 0 := by
  split_ifs <;> simp

/-- The same with the mask on the right. -/
theorem mul_mask (c : Prop) [Decidable c] (a : EReal) : a * (if c then (1 : EReal) else 0) = if c then a else 0 := by
  split_ifs <;> simp

/-- A masked term of a contraction: `p * ((if c then 1 else 0) * a)` is `p * a` where the condition holds and `0`
    where it does not, for every `p`, `a` on the extended reals. -/
theorem mul_mask_mul (c : Prop) [Decidable c] (p a : EReal) :
    p * ((if c then (1 : EReal) else 0) * a) = if c then p * a else 0 := by
  split_ifs <;> simp

/-- A 0/1-masked contraction is the sum over the mask's support: for finite `ι`, any `g : ι → κ`, `k : κ` and any
    `p a : ι → EReal`, `∑ i, p i * ((if g i = k then 1 else 0) * a i) = ∑ i ∈ univ.filter (g · = k), p i * a i`. -/
theorem sum_mul_mask_mul {ι κ : Type*} [Fintype ι] [DecidableEq κ] (g : ι → κ) (k : κ) (p a : ι → EReal) :
    ∑ i, p i * ((if g i = k then (1 : EReal) else 0) * a i)
      = ∑ i ∈ Finset.univ.filter (fun i => g i = k), p i * a i := by
  rw [Finset.sum_filter]
  exact Finset.sum_congr rfl fun i _ => mul_mask_mul _ _ _

/-- The same for a mask stated by any decidable predicate `q` on the index. -/
theorem sum_mul_maskP_mul {ι : Type*} [Fintype ι] (q : ι → Prop) [DecidablePred q] (p a : ι → EReal) :
    ∑ i, p i * ((if q i then (1 : EReal) else 0) * a i) = ∑ i ∈ Finset.univ.filter q, p i * a i := by
  rw [Finset.sum_filter]
  exact Finset.sum_congr rfl fun i _ => mul_mask_mul _ _ _

/-- A masked sum with the mask as the only other factor: `∑ i, (if q i then 1 else 0) * a i` is the sum of `a` over
    the indices where `q` holds. -/
theorem sum_maskP_mul {ι : Type*} [Fintype ι] (q : ι → Prop) [DecidablePred q] (a : ι → EReal) :
    ∑ i, (if q i then (1 : EReal) else 0) * a i = ∑ i ∈ Finset.univ.filter q, a i := by
  rw [Finset.sum_filter]
  exact Finset.sum_congr rfl fun i _ => mask_mul _ _

/-- Position `B * k + b` of block `k < H` at offset `b < B` lies below `H * B`. -/
theorem block_pos_lt {n H B : Nat} (hn : n = H * B) (k : Fin H) (b : Fin B) : B * k.val + b.val < n := by
  subst hn
  calc B * k.val + b.val < B * k.val + B := Nat.add_lt_add_left b.isLt _
    _ = B * (k.val + 1) := (Nat.mul_succ _ _).symm
    _ ≤ B * H := Nat.mul_le_mul_left B k.isLt
    _ = H * B := Nat.mul_comm _ _

/-- The sum over block `k` of an index set of `H` consecutive blocks of `B`: the indices `c : Fin n`
    (`n = H * B`) with `c / B = k` are the `B` positions `B * k + b`, so the filtered sum is a sum over `Fin B`.
    For any additive commutative monoid. -/
theorem sum_filter_block {α : Type*} [AddCommMonoid α] {n H B : Nat} (hn : n = H * B) (k : Fin H) (f : Fin n → α) :
    ∑ c ∈ Finset.univ.filter (fun c : Fin n => c.val / B = k.val), f c
      = ∑ b : Fin B, f ⟨B * k.val + b.val, block_pos_lt hn k b⟩ := by
  symm
  refine Finset.sum_bij (fun b _ => (⟨B * k.val + b.val, block_pos_lt hn k b⟩ : Fin n)) ?_ ?_ ?_ ?_
  · intro b _
    have hB : 0 < B := Nat.lt_of_le_of_lt (Nat.zero_le _) b.isLt
    simp only [Finset.mem_filter, Finset.mem_univ, true_and]
    rw [Nat.mul_add_div hB, Nat.div_eq_of_lt b.isLt, Nat.add_zero]
  · intro b₁ _ b₂ _ h
    have := congrArg Fin.val h
    simp only at this
    exact Fin.ext (by omega)
  · intro c hc
    simp only [Finset.mem_filter, Finset.mem_univ, true_and] at hc
    have hB : 0 < B := Nat.pos_of_ne_zero (by
      rintro rfl
      have h1 : c.val < H * 0 := lt_of_lt_of_eq c.isLt hn
      exact absurd h1 (by simp))
    refine ⟨⟨c.val % B, Nat.mod_lt _ hB⟩, Finset.mem_univ _, ?_⟩
    apply Fin.ext
    show B * k.val + c.val % B = c.val
    rw [← hc]; exact Nat.div_add_mod _ _
  · intro b _; rfl

/-- The block form of the masked contraction: over `Fin n` with `n = H * B` and the mask "`c` lies in block `k`"
    (`c / B = k`), `∑ c, p c * ((if c / B = k then 1 else 0) * a c) = ∑ b : Fin B, p (B·k + b) * a (B·k + b)`. -/
theorem sum_mul_blockmask_mul {n H B : Nat} (hn : n = H * B) (k : Fin H) (p a : Fin n → EReal) :
    ∑ c : Fin n, p c * ((if c.val / B = k.val then (1 : EReal) else 0) * a c)
      = ∑ b : Fin B, p ⟨B * k.val + b.val, block_pos_lt hn k b⟩ * a ⟨B * k.val + b.val, block_pos_lt hn k b⟩ := by
  rw [sum_mul_maskP_mul (fun c : Fin n => c.val / B = k.val) p a]
  exact sum_filter_block hn k fun c => p c * a c

/-- The one-hot expansion: `∑ h : Fin H, t h * (if j = h then 1 else 0) = t j` on the extended reals. -/
theorem sum_mul_onehot {H : Nat} (t : Fin H → EReal) (j : Fin H) :
    ∑ h : Fin H, t h * (if j = h then (1 : EReal) else 0) = t j := by
  simp only [mul_mask]
  rw [Finset.sum_ite_eq Finset.univ j t, if_pos (Finset.mem_univ _)]

/-- The one-hot expansion with the selected position a natural number `q < H` compared with the summation index's
    value: `∑ h : Fin H, t h * (if q = h then 1 else 0) = t q`. With `q = c / B` for `c < H * B` this is the block
    number of `c`. -/
theorem sum_mul_onehot_val {H : Nat} (t : Fin H → EReal) (q : Nat) (hq : q < H) :
    ∑ h : Fin H, t h * (if q = h.val then (1 : EReal) else 0) = t ⟨q, hq⟩ := by
  rw [← sum_mul_onehot t ⟨q, hq⟩]
  refine Finset.sum_congr rfl fun h _ => ?_
  have : (q = h.val) ↔ ((⟨q, hq⟩ : Fin H) = h) := ⟨fun e => Fin.ext e, fun e => congrArg Fin.val e⟩
  simp only [this]

/-- The block number of a position below `H * B` is below `H`. -/
theorem block_lt {n H B : Nat} (hn : n = H * B) (c : Fin n) : c.val / B < H := by
  have hc : c.val < H * B := lt_of_lt_of_eq c.isLt hn
  exact Nat.div_lt_of_lt_mul (lt_of_lt_of_eq hc (Nat.mul_comm H B))

/-- The one-hot expansion at a block number: for `c : Fin n`, `n = H * B`,
    `∑ h : Fin H, t h * (if c / B = h then 1 else 0) = t (c / B)`. -/
theorem sum_mul_onehot_block {n H B : Nat} (hn : n = H * B) (t : Fin H → EReal) (c : Fin n) :
    ∑ h : Fin H, t h * (if c.val / B = h.val then (1 : EReal) else 0) = t ⟨c.val / B, block_lt hn c⟩ :=
  sum_mul_onehot_val t _ _

end Cert.Lib
-- ==== Proof.LibBlockSum.lean ====
/-
  A sum over `H` consecutive blocks of `B` positions is the sum over all `H * B` positions; and a small natural
  number's 32-bit word is the word whose signed reading is that number.
-/
import proofs.«416958_j58128087384233_1_alg».proof.Proof.LibMaskSum
import Idealize.ShloMosaic.Lib.StableHlo.Predicate
import Mathlib.Algebra.BigOperators.Fin

open scoped BigOperators

namespace Cert.Lib

open Idealize.ShloMosaic

/-- Summing block by block: over `Fin n` with `n = H * B`, the double sum over the block `k` and the offset `b` of
    `f (B * k + b)` is the sum of `f` over every position. For any additive commutative monoid. -/
theorem sum_blocks {α : Type*} [AddCommMonoid α] {n H B : Nat} (hn : n = H * B) (f : Fin n → α) :
    ∑ k : Fin H, ∑ b : Fin B, f ⟨B * k.val + b.val, block_pos_lt hn k b⟩ = ∑ c : Fin n, f c := by
  subst hn
  rw [← Fintype.sum_prod_type (f := fun p : Fin H × Fin B => f ⟨B * p.1.val + p.2.val, block_pos_lt rfl p.1 p.2⟩)]
  refine Fintype.sum_equiv finProdFinEquiv _ _ fun p => congrArg f (Fin.ext ?_)
  show B * p.1.val + p.2.val = (finProdFinEquiv p).val
  rw [finProdFinEquiv_apply_val]
  exact Nat.add_comm _ _

/-- A 32-bit word is the word of a natural number `g < 2 ^ 31` exactly when its signed reading is `g`. -/
theorem ofNat_eq_iff_toInt (g : Nat) (hg : g < 2 ^ 31) (w : BitVec 32) :
    BitVec.ofNat 32 g = w ↔ w.toInt = (g : Int) := by
  constructor
  · rintro rfl
    exact StableHlo.Predicate.toInt_ofNat_small g hg
  · intro h
    apply BitVec.eq_of_toInt_eq
    rw [h, StableHlo.Predicate.toInt_ofNat_small g hg]

end Cert.Lib
-- ==== Proof.Spec.lean ====
/-
  The specification. A matrix product with a row of biases added, entry by entry on the extended reals:
  `(A · W + bias) (r, c) = (∑ l, A (r, l) * W (l, c)) + bias c` with `A : [4096, 4096]`, `W : [4096, 12288]`.

  The contraction index runs over 4096 positions; cut into four consecutive blocks of 1024 the sum of the four block
  sums is the whole sum (addition on the extended reals is commutative and associative, so no finiteness is needed).
  The partial sums `∑ k < n, blockSum f k` are what an accumulator holds after the first `n` blocks.
-/
import Idealize.ShloMosaic.PureOps.Ideal
import Idealize.ShloMosaic.Lib.ValueIdx
import proofs.«416958_j58128087384233_1_alg».proof.Proof.LibBlockSum

noncomputable section

open scoped BigOperators

namespace Cert.Spec

open Idealize.ShloMosaic Idealize.ShloMosaic.ValueIdx

/-- The terms of the inner product of row `r` of `A` with column `cc` of `W`, by contraction position. -/
def prodAt (A : (⟨2, ![4096, 4096]⟩ : Shape).Idx → EReal) (W : (⟨2, ![4096, 12288]⟩ : Shape).Idx → EReal)
    (r : Fin 4096) (cc : Fin 12288) (l : Fin 4096) : EReal :=
  A (ix2 r l) * W (ix2 l cc)

/-- `A · W + bias`, entry by entry. -/
def dotBias (A : (⟨2, ![4096, 4096]⟩ : Shape).Idx → EReal) (W : (⟨2, ![4096, 12288]⟩ : Shape).Idx → EReal)
    (bias : (⟨1, ![12288]⟩ : Shape).Idx → EReal) : (⟨2, ![4096, 12288]⟩ : Shape).Idx → EReal :=
  fun i => (∑ l : Fin 4096, prodAt A W (i 0) (i 1) l) + bias (ix1 (i 1))

/-- The part of a sum over 4096 positions that falls in block `k` of 1024 consecutive positions (zero past the
    fourth block). -/
def blockSum (f : Fin 4096 → EReal) (k : ℕ) : EReal :=
  if h : k < 4 then ∑ b : Fin 1024, f ⟨1024 * k + b.val, by have := b.isLt; omega⟩ else 0

/-- Inside the range a block sum is the sum over the block's 1024 positions. -/
theorem blockSum_of_lt (f : Fin 4096 → EReal) (k : ℕ) (h : k < 4) :
    blockSum f k = ∑ b : Fin 1024, f ⟨1024 * k + b.val, by have := b.isLt; omega⟩ := by
  unfold blockSum
  rw [dif_pos h]

/-- The four block sums add up to the whole sum. -/
theorem sum_blockSum (f : Fin 4096 → EReal) : ∑ k ∈ Finset.range 4, blockSum f k = ∑ l : Fin 4096, f l := by
  rw [Finset.sum_range, ← Cert.Lib.sum_blocks (n := 4096) (H := 4) (B := 1024) rfl f]
  refine Finset.sum_congr rfl fun k _ => ?_
  rw [blockSum_of_lt f k.val k.isLt]

/-- The accumulator started from zero holds the first block sum after one block. -/
theorem zero_add_blockSum (f : Fin 4096 → EReal) : (0 : EReal) + blockSum f 0 = ∑ k ∈ Finset.range (0 + 1), blockSum f k := by
  rw [zero_add, Finset.sum_range_one]

/-- Adding the next block sum extends the partial sum by one block. -/
theorem partial_add_blockSum (f : Fin 4096 → EReal) (n : ℕ) :
    (∑ k ∈ Finset.range n, blockSum f k) + blockSum f n = ∑ k ∈ Finset.range (n + 1), blockSum f k :=
  (Finset.sum_range_succ _ n).symm

end Cert.Spec

end
-- ==== Proof.Blocks.lean ====
/-
  The input blocks of a grid point as entries of the whole arrays.

  The grid is `4 × 12 × 4`, point `t` standing for `(i, j, k)` with `i = t / 48`, `j = (t / 4) % 12`, `k = t % 4`.
  At that point the left operand's block is rows `1024 i + ·`, columns `1024 k + ·` of `A`; the right operand's
  block is rows `1024 k + ·`, columns `1024 j + ·` of `W`; the bias block is entries `1024 j + ·`. So the inner
  product of row `p` of the left block and column `q` of the right block is block `k` of the 4096-term inner product
  of row `1024 i + p` of `A` and column `1024 j + q` of `W`.
-/
import proofs.«416958_j58128087384233_1_alg».proof.Proof.Gen.KernelIdeal.Frame
import proofs.«416958_j58128087384233_1_alg».proof.Proof.Spec

noncomputable section

open scoped BigOperators

namespace Cert.KernelBlocks

open Idealize.ShloMosaic Idealize.ShloMosaic.TcCoe Idealize.ShloMosaic.ValueIdx Idealize.SL.Sem
open Cert.KernelIdeal Cert.KernelIdeal.Gen Cert.Spec

variable (m : (ℓ : Loc nD τ sig) → Buf (Elt Ideal) ℓ)

/-- The left operand as the region finds it, -/
abbrev aArr (c : Dev nD) : Vec Ideal S4096x4096 .bf16 := V m c main_v21
/-- the right operand, -/
abbrev wArr (c : Dev nD) : Vec Ideal S4096x12288 .bf16 := V m c main_v20
/-- and the bias row. -/
abbrev bArr (c : Dev nD) : Vec Ideal S12288 .f32 := V m c main_arg3

/-- Their blocks at point `t`. -/
abbrev aBlk (c : Dev nD) (t : Fin cfg0.N) : Vec Ideal S1024x1024 .bf16 := iblk m c 0 t
abbrev wBlk (c : Dev nD) (t : Fin cfg0.N) : Vec Ideal S1024x1024 .bf16 := iblk m c 1 t
abbrev bBlk (c : Dev nD) (t : Fin cfg0.N) : Vec Ideal S1024 .f32 := iblk m c 2 t

theorem lt192 (t : Fin cfg0.N) : t.val < 192 := lt_of_lt_of_eq t.isLt (show cfg0.N = 192 from N_0)

/-- The row of `A` (and of the result) that row `p` of the block at point `t` is, -/
def rowOf (t : Fin cfg0.N) (p : Fin 1024) : Fin 4096 :=
  ⟨1024 * (t.val / 48) + p.val, by have := lt192 t; have := p.isLt; omega⟩
/-- the column of `W` (and of the result) that column `q` of the block is, -/
def colOf (t : Fin cfg0.N) (q : Fin 1024) : Fin 12288 :=
  ⟨1024 * (t.val / 4 % 12) + q.val, by have := q.isLt; omega⟩
/-- and the contraction position that position `l` of the block is. -/
def posOf (t : Fin cfg0.N) (l : Fin 1024) : Fin 4096 :=
  ⟨1024 * (t.val % 4) + l.val, by have := l.isLt; omega⟩

/-- The windows' block indices at point `t` are its coordinates, decided over the grid. -/
theorem idx_facts : ∀ t : Fin cfg0.N, win0_0.index t (0 : Fin 2) = t.val / 48 ∧ win0_0.index t (1 : Fin 2) = t.val % 4
    ∧ win0_1.index t (0 : Fin 2) = t.val % 4 ∧ win0_1.index t (1 : Fin 2) = t.val / 4 % 12
    ∧ win0_2.index t (0 : Fin 1) = t.val / 4 % 12
    ∧ win0_3.index t (0 : Fin 2) = t.val / 48 ∧ win0_3.index t (1 : Fin 2) = t.val / 4 % 12 :=
  (by decide +kernel : ∀ t : Fin grid0.N, _)

/-- The left block at `(p, l)` is `A` at `(1024 i + p, 1024 k + l)`. -/
theorem aBlk_apply (c : Dev nD) (t : Fin cfg0.N) (p l : Fin 1024) :
    aBlk m c t (ix2 p l) = aArr m c (ix2 (rowOf t p) (posOf t l)) := by
  obtain ⟨e0, e1, -⟩ := idx_facts t
  show V m c main_v21 (((cfg0.win 0).blk t).view.emb (ix2 p l)) = V m c main_v21 (ix2 (rowOf t p) (posOf t l))
  refine congrArg _ (funext fun a => Fin.ext ?_)
  match a with
  | ⟨0, _⟩ => show win0_0.index t (0 : Fin 2) * 1024 + 1 * p.val = 1024 * (t.val / 48) + p.val; omega
  | ⟨1, _⟩ => show win0_0.index t (1 : Fin 2) * 1024 + 1 * l.val = 1024 * (t.val % 4) + l.val; omega

/-- The right block at `(l, q)` is `W` at `(1024 k + l, 1024 j + q)`. -/
theorem wBlk_apply (c : Dev nD) (t : Fin cfg0.N) (l q : Fin 1024) :
    wBlk m c t (ix2 l q) = wArr m c (ix2 (posOf t l) (colOf t q)) := by
  obtain ⟨-, -, e0, e1, -⟩ := idx_facts t
  show V m c main_v20 (((cfg0.win 1).blk t).view.emb (ix2 l q)) = V m c main_v20 (ix2 (posOf t l) (colOf t q))
  refine congrArg _ (funext fun a => Fin.ext ?_)
  match a with
  | ⟨0, _⟩ => show win0_1.index t (0 : Fin 2) * 1024 + 1 * l.val = 1024 * (t.val % 4) + l.val; omega
  | ⟨1, _⟩ => show win0_1.index t (1 : Fin 2) * 1024 + 1 * q.val = 1024 * (t.val / 4 % 12) + q.val; omega

/-- The bias block at `q` is the bias row at `1024 j + q`. -/
theorem bBlk_apply (c : Dev nD) (t : Fin cfg0.N) (q : Fin 1024) :
    bBlk m c t (ix1 q) = bArr m c (ix1 (colOf t q)) := by
  obtain ⟨-, -, -, -, e0, -⟩ := idx_facts t
  show V m c main_arg3 (((cfg0.win 2).blk t).view.emb (ix1 q)) = V m c main_arg3 (ix1 (colOf t q))
  refine congrArg _ (funext fun a => Fin.ext ?_)
  match a with
  | ⟨0, _⟩ => show win0_2.index t (0 : Fin 1) * 1024 + 1 * q.val = 1024 * (t.val / 4 % 12) + q.val; omega

/-- The terms of the inner product that entry `(p, q)` of the output block at point `t` accumulates. -/
abbrev termsAt (c : Dev nD) (t : Fin cfg0.N) (p q : Fin 1024) : Fin 4096 → EReal :=
  prodAt (aArr m c) (wArr m c) (rowOf t p) (colOf t q)

/-- The product of the two blocks at `(p, q)` is block `k = t % 4` of that inner product. -/
theorem block_product (c : Dev nD) (t : Fin cfg0.N) (p q : Fin 1024) :
    ∑ l : Fin 1024, aBlk m c t (ix2 p l) * wBlk m c t (ix2 l q) = blockSum (termsAt m c t p q) (t.val % 4) := by
  rw [blockSum_of_lt _ _ (Nat.mod_lt _ (by norm_num))]
  refine Finset.sum_congr rfl fun l _ => ?_
  rw [aBlk_apply, wBlk_apply]
  rfl

end Cert.KernelBlocks

end
-- ==== Proof.Accum.lean ====
/-
  The kernel's result array is `A · W + bias`.

  Along a run of four grid points with the same output block the scratch accumulator holds, after step `k`, the sum
  of the first `k + 1` block sums of each entry's inner product: the first step puts zero plus block 0 there, each
  later step adds its block. The last step writes the accumulator plus the bias block into the output block, so what
  is written back at `(p, q)` is the whole 4096-term inner product plus the bias entry. The 48 output blocks tile the
  result array, so the array ends at the specification.
-/
import proofs.«416958_j58128087384233_1_alg».proof.Proof.Gen.KernelIdeal.Value
import proofs.«416958_j58128087384233_1_alg».proof.Proof.Pieces
import proofs.«416958_j58128087384233_1_alg».proof.Proof.PayloadAt
import proofs.«416958_j58128087384233_1_alg».proof.Proof.Blocks

noncomputable section

open scoped BigOperators

namespace Cert.KernelValue

open Idealize.ShloMosaic Idealize.ShloMosaic.TcCoe Idealize.ShloMosaic.ValueIdx Idealize.SL.Sem
open Idealize.ShloMosaic.Pipeline (Dat)
open Cert.KernelIdeal Cert.KernelIdeal.Gen Cert.Spec Cert.KernelBlocks Cert.KernelAt Cert.KernelPieces

variable (m : (ℓ : Loc nD τ sig) → Buf (Elt Ideal) ℓ) (ρ : Dev nD → PrngReg)

/-- A point that is not the first of its run has the row coordinate of the point before it, -/
theorem rowOf_pred (n : ℕ) (h : n < cfg0.N) (h' : n - 1 < cfg0.N) (h0 : ¬n % 4 = 0) (p : Fin 1024) :
    rowOf ⟨n - 1, h'⟩ p = rowOf ⟨n, h⟩ p :=
  Fin.ext (by show 1024 * ((n - 1) / 48) + p.val = 1024 * (n / 48) + p.val; omega)

/-- and its column coordinate. -/
theorem colOf_pred (n : ℕ) (h : n < cfg0.N) (h' : n - 1 < cfg0.N) (h0 : ¬n % 4 = 0) (q : Fin 1024) :
    colOf ⟨n - 1, h'⟩ q = colOf ⟨n, h⟩ q :=
  Fin.ext (by show 1024 * ((n - 1) / 4 % 12) + q.val = 1024 * (n / 4 % 12) + q.val; omega)

/-- One accumulation step past the first: if the accumulator holds the partial sum of the point before, the update
    holds the partial sum of this point. -/
theorem update_eq (c : Dev nD) (n : ℕ) (h : n < cfg0.N) (h' : n - 1 < cfg0.N) (h0 : ¬n % 4 = 0)
    (acc : Vec Ideal S1024x1024 .f32) (p q : Fin 1024)
    (hacc : acc (ix2 p q) = ∑ k ∈ Finset.range ((n - 1) % 4 + 1), blockSum (termsAt m c ⟨n - 1, h'⟩ p q) k) :
    k0_pay2 (F := Ideal) acc (aBlk m c ⟨n, h⟩) (wBlk m c ⟨n, h⟩) (ix2 p q)
      = ∑ k ∈ Finset.range (n % 4 + 1), blockSum (termsAt m c ⟨n, h⟩ p q) k := by
  have e : (n - 1) % 4 + 1 = n % 4 := by omega
  rw [pay2_apply, hacc, block_product]
  show (∑ k ∈ Finset.range ((n - 1) % 4 + 1), blockSum (prodAt (aArr m c) (wArr m c) (rowOf ⟨n - 1, h'⟩ p) (colOf ⟨n - 1, h'⟩ q)) k)
      + blockSum (prodAt (aArr m c) (wArr m c) (rowOf ⟨n, h⟩ p) (colOf ⟨n, h⟩ q)) (n % 4) = _
  rw [rowOf_pred n h h' h0, colOf_pred n h h' h0, e]
  exact partial_add_blockSum _ _

/-- THE ACCUMULATOR after point `n`: at `(p, q)` the sum of the first `n % 4 + 1` block sums of the inner product of
    the entry's row of `A` and column of `W`. By induction on the point. -/
theorem scratch_eq (c : Dev nD) : ∀ (n : ℕ) (h : n < cfg0.N) (p q : Fin 1024),
    (outsAt0 m c n h).2 (ix2 p q) = ∑ k ∈ Finset.range (n % 4 + 1), blockSum (termsAt m c ⟨n, h⟩ p q) k := by
  intro n
  induction n using Nat.strong_induction_on with
  | _ n IH =>
    intro h p q
    by_cases h0 : n % 4 = 0
    · have h1 : ¬n % 4 = 3 := by omega
      rw [outsAt0_A m c ⟨n, h⟩ h0 h1]
      dsimp only
      refine (congrFun (scratch_A (F := Ideal) c (grid0.coords ⟨n, h⟩) (ms0_0 ⟨n, h⟩) (hs0_0 ⟨n, h⟩) (ms0_1 ⟨n, h⟩) (hs0_1 ⟨n, h⟩) (ms0_2 ⟨n, h⟩) (hs0_2 ⟨n, h⟩) (ms0_3 ⟨n, h⟩) (hs0_3 ⟨n, h⟩) scM0_0 (Memref.isWhole_whole _) ((hcond0_0 ⟨n, h⟩).mpr h0) (fun hh => h1 ((hcond0_1 ⟨n, h⟩).mp hh)) (aBlk m c ⟨n, h⟩) (wBlk m c ⟨n, h⟩) (bBlk m c ⟨n, h⟩)) (ix2 p q)).trans ?_
      rw [pay2_apply, pay1_apply, block_product]
      show (0 : EReal) + blockSum (termsAt m c ⟨n, h⟩ p q) (n % 4) = _
      rw [h0]
      exact zero_add_blockSum _
    · have h' : n - 1 < cfg0.N := by omega
      have ih := IH (n - 1) (by omega) h' p q
      by_cases h1 : n % 4 = 3
      · rw [outsAt0_C m c ⟨n, h⟩ h0 h1]
        dsimp only
        refine (congrFun (scratch_C (F := Ideal) c (grid0.coords ⟨n, h⟩) (ms0_0 ⟨n, h⟩) (hs0_0 ⟨n, h⟩) (ms0_1 ⟨n, h⟩) (hs0_1 ⟨n, h⟩) (ms0_2 ⟨n, h⟩) (hs0_2 ⟨n, h⟩) (ms0_3 ⟨n, h⟩) (hs0_3 ⟨n, h⟩) scM0_0 (Memref.isWhole_whole _) (fun hh => h0 ((hcond0_0 ⟨n, h⟩).mp hh)) ((hcond0_1 ⟨n, h⟩).mpr h1) (aBlk m c ⟨n, h⟩) (wBlk m c ⟨n, h⟩) (bBlk m c ⟨n, h⟩) (outsAt0 m c (n - 1) h').2) (ix2 p q)).trans ?_
        exact update_eq m c n h h' h0 _ p q ih
      · rw [outsAt0_B m c ⟨n, h⟩ h0 h1]
        dsimp only
        refine (congrFun (scratch_B (F := Ideal) c (grid0.coords ⟨n, h⟩) (ms0_0 ⟨n, h⟩) (hs0_0 ⟨n, h⟩) (ms0_1 ⟨n, h⟩) (hs0_1 ⟨n, h⟩) (ms0_2 ⟨n, h⟩) (hs0_2 ⟨n, h⟩) (ms0_3 ⟨n, h⟩) (hs0_3 ⟨n, h⟩) scM0_0 (Memref.isWhole_whole _) (fun hh => h0 ((hcond0_0 ⟨n, h⟩).mp hh)) (fun hh => h1 ((hcond0_1 ⟨n, h⟩).mp hh)) (aBlk m c ⟨n, h⟩) (wBlk m c ⟨n, h⟩) (bBlk m c ⟨n, h⟩) (outsAt0 m c (n - 1) h').2) (ix2 p q)).trans ?_
        exact update_eq m c n h h' h0 _ p q ih

/-- Entry `(p, q)` of the output block at point `t` is entry `(1024 i + p, 1024 j + q)` of the result array. -/
theorem emb_out (t : Fin cfg0.N) (p q : Fin 1024) :
    ((cfg0.win 3).blk t).view.emb (ix2 p q) = ix2 (rowOf t p) (colOf t q) := by
  obtain ⟨-, -, -, -, -, e0, e1⟩ := idx_facts t
  refine funext fun a => Fin.ext ?_
  match a with
  | ⟨0, _⟩ => show win0_3.index t (0 : Fin 2) * 1024 + 1 * p.val = 1024 * (t.val / 48) + p.val; omega
  | ⟨1, _⟩ => show win0_3.index t (1 : Fin 2) * 1024 + 1 * q.val = 1024 * (t.val / 4 % 12) + q.val; omega

/-- WHAT THE LAST STEP OF A RUN WRITES BACK is its block of `A · W + bias`. -/
theorem flushed_eq (c : Dev nD) (t : Fin cfg0.N) (hf : (cfg0.win 3).flush t = true) :
    (dats m 0 c).flushed 3 t
      = ((cfg0.win 3).blk t).view.read (Elt Ideal) (dotBias (aArr m c) (wArr m c) (bArr m c)) := by
  have h1 : t.val % 4 = 3 := (flush0_3 t).mp hf
  have h0 : ¬t.val % 4 = 0 := by omega
  have h' : t.val - 1 < cfg0.N := Nat.lt_of_le_of_lt (Nat.sub_le _ _) t.isLt
  rw [Value.flushed3_C m c t h0 h1]
  funext j
  obtain ⟨p, q, rfl⟩ : ∃ (p q : Fin 1024), j = ix2 p q := ⟨j 0, j 1, eq_ix2 j⟩
  show out0_C_3 c (grid0.coords t) (ms0_0 t) (hs0_0 t) (ms0_1 t) (hs0_1 t) (ms0_2 t) (hs0_2 t) (ms0_3 t) (hs0_3 t) scM0_0 (Memref.isWhole_whole _) (fun hh => h0 ((hcond0_0 t).mp hh)) ((hcond0_1 t).mpr h1) (aBlk m c t) (wBlk m c t) (bBlk m c t) (outsAt0 m c (t.val - 1) h').2 (ix2 p q)
    = dotBias (aArr m c) (wArr m c) (bArr m c) (((cfg0.win 3).blk t).view.emb (ix2 p q))
  rw [emb_out]
  refine (congrFun (out_C (F := Ideal) c (grid0.coords t) (ms0_0 t) (hs0_0 t) (ms0_1 t) (hs0_1 t) (ms0_2 t) (hs0_2 t) (ms0_3 t) (hs0_3 t) scM0_0 (Memref.isWhole_whole _) (fun hh => h0 ((hcond0_0 t).mp hh)) ((hcond0_1 t).mpr h1) (aBlk m c t) (wBlk m c t) (bBlk m c t) (outsAt0 m c (t.val - 1) h').2) (ix2 p q)).trans ?_
  rw [pay3_apply, bBlk_apply]
  refine congrArg (· + bArr m c (ix1 (colOf t q))) ?_
  refine (update_eq m c t.val t.isLt h' h0 _ p q (scratch_eq m c (t.val - 1) h' p q)).trans ?_
  rw [h1]
  exact sum_blockSum _

/-- An index of the result array is in point `t`'s output block iff each coordinate is in the block's range. -/
theorem mem_blk (t : Fin cfg0.N) (i : S4096x12288.Idx) :
    i ∈ ((cfg0.win 3).blk t).view.set ↔ ∀ a : Fin 2, win0_3.index t a * S1024x1024.size a ≤ (i a).val ∧ (i a).val < win0_3.index t a * S1024x1024.size a + S1024x1024.size a := by
  show i ∈ ((View.whole main_v22).slice (win0_3.rect t)).set ↔ _
  rw [View.set_slice_whole, Rect.mem_set_unit]
  exact Iff.rfl

/-- THE RESULT ARRAY after the run: every entry lies in the output block of the last step of some run. -/
theorem final (c : Dev nD) : (dats m 0 c).arrAt 3 cfg0.N = dotBias (aArr m c) (wArr m c) (bArr m c) :=
  (dats m 0 c).arrAt_eq_of_cover 3 _ (flushed_eq m c) fun i => by
    have hi0 : (i 0).val < 4096 := (i 0).isLt
    have hi1 : (i 1).val < 12288 := (i 1).isLt
    have hN : cfg0.N = 192 := N_0
    have ht : ((i 0).val / 1024 * 12 + (i 1).val / 1024) * 4 + 3 < cfg0.N := by rw [hN]; omega
    obtain ⟨-, -, -, -, -, e0, e1⟩ := idx_facts ⟨_, ht⟩
    refine ⟨⟨_, ht⟩, (flush0_3 _).mpr (by show (((i 0).val / 1024 * 12 + (i 1).val / 1024) * 4 + 3) % 4 = 3; omega), ?_⟩
    rw [mem_blk]
    intro a
    match a with
    | ⟨0, _⟩ =>
      show win0_3.index ⟨_, ht⟩ (0 : Fin 2) * 1024 ≤ (i 0).val ∧ (i 0).val < win0_3.index ⟨_, ht⟩ (0 : Fin 2) * 1024 + 1024
      rw [e0]
      show (((i 0).val / 1024 * 12 + (i 1).val / 1024) * 4 + 3) / 48 * 1024 ≤ (i 0).val ∧ (i 0).val < (((i 0).val / 1024 * 12 + (i 1).val / 1024) * 4 + 3) / 48 * 1024 + 1024
      omega
    | ⟨1, _⟩ =>
      show win0_3.index ⟨_, ht⟩ (1 : Fin 2) * 1024 ≤ (i 1).val ∧ (i 1).val < win0_3.index ⟨_, ht⟩ (1 : Fin 2) * 1024 + 1024
      rw [e1]
      show (((i 0).val / 1024 * 12 + (i 1).val / 1024) * 4 + 3) / 4 % 12 * 1024 ≤ (i 1).val ∧ (i 1).val < (((i 0).val / 1024 * 12 + (i 1).val / 1024) * 4 + 3) / 4 % 12 * 1024 + 1024
      omega

/-- The kernel's run, read: the result array at `A · W + bias` of the arrays the region finds, the arguments unchanged. -/
theorem run : θ_run defs (onTc (τ := τ) (main (F := Ideal))) ⟨m, fun _ => 0, ρ⟩ fun r => ∀ c : Dev nD,
      r.2.mem ((c : Thread nD τ).loc main_v22) = dotBias (aArr m c) (wArr m c) (bArr m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final m c), (h c).2⟩) (Value.run_blocks m ρ)

end Cert.KernelValue

end
-- ==== Proof.HostSide.lean ====
/-
  The host side of both programs.

  Both programs unpack the same int4 nibbles from the packed words, subtract 8 and scale by the group scales, by the
  same operations in the same order: the dequantised weights `W` are one term of the packed words and the scales,
  which is never opened here. The kernel then rounds `W` and `A` to bf16, which on the extended reals is the
  identity, so the region finds exactly `A`, `W` and the bias row. The reference multiplies `A` by `W` with one
  plain `dot_general` and adds the bias row broadcast down the rows: entry by entry that is the specification.
-/
import proofs.«416958_j58128087384233_1_alg».proof.Proof.Gen.KernelIdeal.Frame
import proofs.«416958_j58128087384233_1_alg».proof.Proof.Gen.ReferenceIdeal.Run
import proofs.«416958_j58128087384233_1_alg».proof.Proof.Blocks
import proofs.«416958_j58128087384233_1_alg».proof.Proof.LibPlainDot
import Idealize.ShloMosaic.Lib.StableHlo.Run
import Idealize.ShloMosaic.Lib.Pipeline.Value
import Idealize.ShloMosaic.Lib.Tactic

noncomputable section

open scoped BigOperators

namespace Cert.HostSide

open Idealize.ShloMosaic Idealize.ShloMosaic.TcCoe Idealize.ShloMosaic.ValueIdx Idealize.SL.Sem Cert.Spec

section Reference

open Cert.ReferenceIdeal Cert.ReferenceIdeal.Gen

/-- The dequantised weights: the nibbles of the packed words, minus 8, times the group scales — the host operations
    both programs apply, as one term. -/
def deq (B : Vec Ideal S256x24576 .i32) (s : FVec Ideal S32x12288 .f32) : FVec Ideal S4096x12288 .f32 :=
  (mulf (subf (sitofp .f32 (shapeCast S4096x12288 (transpose S256x16x12288 [0, 2, 1] (shapeCast S256x12288x16 (andi (Host.shrsi (broadcastInDim S256x12288x2x8 ![0, 1, 2, 3] bcast_S256x12288x2x1_S256x12288x2x8_0_1_2_3 (broadcastInDim S256x12288x2x1 ![0, 1, 2] bcast_S256x12288x2_S256x12288x2x1_0_1_2 (shapeCast S256x12288x2 B shapeCasts_S256x24576_S256x12288x2))) (broadcastInDim S256x12288x2x8 ![0, 1, 2, 3] bcast_S1x1x1x8_S256x12288x2x8_0_1_2_3 (broadcastInDim S1x1x1x8 ![3] bcast_S8_S1x1x1x8_3 (muli (iotaInDim S8 32 0) (broadcastInDim S8 ![] bcast_S_S8 (constantI S_ 32 4#32)))))) (broadcastInDim S256x12288x2x8 ![] bcast_S_S256x12288x2x8 (constantI S_ 32 15#32))) shapeCasts_S256x12288x2x8_S256x12288x16) transposes_S256x12288x16_S256x16x12288_0_2_1) shapeCasts_S256x16x12288_S4096x12288)) (broadcastInDim S4096x12288 ![] bcast_S_S4096x12288 (constant S_ .f32 0x41000000#32))) (shapeCast S4096x12288 (broadcastInDim S32x128x12288 ![0, 2] bcast_S32x12288_S32x128x12288_0_2 s) shapeCasts_S32x128x12288_S4096x12288))

/-- The reference's product is a plain `[4096, 4096] × [4096, 12288]` product. -/
theorem plainRef : Cert.Lib.PlainDot dot_S4096x4096_S4096x12288_S4096x12288_1_0_0_1_n_n := ⟨rfl, rfl, rfl, rfl, rfl, rfl⟩

/-- The reference's result term is the specification of its arguments: the `dot_general` at `(a, b)` is the
    4096-term inner product, and the twice-broadcast bias row at `(a, b)` is its entry `b`. -/
theorem reference_eq (A : FVec Ideal S4096x4096 .f32) (W : FVec Ideal S4096x12288 .f32) (bias : FVec Ideal S12288 .f32) :
    addf (Host.dotGeneral dot_S4096x4096_S4096x12288_S4096x12288_1_0_0_1_n_n none A W)
        (broadcastInDim S4096x12288 ![0, 1] bcast_S1x12288_S4096x12288_0_1 (broadcastInDim S1x12288 ![1] bcast_S12288_S1x12288_1 bias))
      = dotBias A W bias := by
  funext i
  obtain ⟨a, b, rfl⟩ : ∃ (a : Fin 4096) (b : Fin 12288), i = ix2 a b := ⟨i 0, i 1, eq_ix2 i⟩
  rw [addf_apply]
  have hb : broadcastInDim S4096x12288 ![0, 1] bcast_S1x12288_S4096x12288_0_1 (broadcastInDim S1x12288 ![1] bcast_S12288_S1x12288_1 bias) (ix2 a b)
      = bias (ix1 b) := by
    rw [broadcastInDim_apply _ _ _ (ix2 a b) (ix2 (0 : Fin 1) b) (fun ax => by
      match ax with
      | ⟨0, _⟩ => rfl
      | ⟨1, _⟩ => rfl)]
    exact broadcastInDim_apply _ _ _ (ix2 (0 : Fin 1) b) (ix1 b) (fun ax => by
      match ax with
      | ⟨0, _⟩ => rfl)
  rw [hb]
  exact congrArg (· + bias (ix1 b)) (plainRef.dotGeneral_apply none .single A W a b)

end Reference

section Kernel

open Cert.KernelIdeal Cert.KernelIdeal.Gen Cert.KernelBlocks

variable (m : (ℓ : Loc nD τ sig) → Buf (Elt Ideal) ℓ)

/-- The region finds the left operand as launched: its rounding to bf16 is the identity on the extended reals. -/
theorem aArr_eq (c : Dev nD) : aArr m c = m ((c : Thread nD τ).loc main_arg0) := by
  show (V m c main_v21 : S4096x4096.Idx → EReal) = _
  dsimp only [V, hostOps0]
  after_results
  rfl

/-- The region finds the right operand at the dequantised weights of the packed words and scales as launched. -/
theorem wArr_eq (c : Dev nD) :
    wArr m c = deq (m ((c : Thread nD τ).loc main_arg1)) (m ((c : Thread nD τ).loc main_arg2)) := by
  show (V m c main_v20 : S4096x12288.Idx → EReal) = _
  dsimp only [V, hostOps0]
  after_results
  rfl

/-- The region finds the bias row as launched. -/
theorem bArr_eq (c : Dev nD) : bArr m c = m ((c : Thread nD τ).loc main_arg3) := V_main_arg3 m c

end Kernel

end Cert.HostSide

end
-- ==== Proof.lean ====
/-
  A 4-bit-quantised linear layer: `C = A · W + bias` with `A : [4096, 4096]`, `bias : [12288]` and
  `W : [4096, 12288]` dequantised from packed 4-bit words and per-group scales.

  Both programs build `W` by the same host operations (nibble `n` of each packed word, minus 8, times the scale of the
  row's group of 128), so `W` is one term of the inputs on both sides and is never opened. The kernel rounds `A` and `W`
  to bf16 — the identity on the extended reals — and computes each `1024 × 1024` block of `C` in four steps along the
  contraction axis: an accumulator set to zero at the first step, the product of a block of `A` and a block of `W`
  added at every step, and the accumulator plus the bias block stored at the last. The reference takes one product
  over the whole contraction axis and adds the bias row.

  Entry by entry the kernel's value is `((((0 + S₀) + S₁) + S₂) + S₃) + bias` with `Sₖ` the sum of the 1024 products of
  block `k`, and the reference's is the sum of all 4096 products plus `bias`. Addition on the extended reals is
  commutative and associative with zero neutral, so the two are equal with no finiteness condition: the precondition
  is not used. The idealisation rewrote nothing, so the preservation claim is trivial.
-/
import proofs.«416958_j58128087384233_1_alg».proof.Defs
import proofs.«416958_j58128087384233_1_alg».proof.Proof.Gen.Kernel
import proofs.«416958_j58128087384233_1_alg».proof.Proof.Gen.Kernel.Skeleton
import proofs.«416958_j58128087384233_1_alg».proof.Proof.Gen.Kernel.Launch
import proofs.«416958_j58128087384233_1_alg».proof.Proof.Gen.Kernel.Points
import proofs.«416958_j58128087384233_1_alg».proof.Proof.Gen.Kernel.Frame
import proofs.«416958_j58128087384233_1_alg».proof.Proof.Gen.KernelIdeal
import proofs.«416958_j58128087384233_1_alg».proof.Proof.Gen.KernelIdeal.Skeleton
import proofs.«416958_j58128087384233_1_alg».proof.Proof.Gen.KernelIdeal.Launch
import proofs.«416958_j58128087384233_1_alg».proof.Proof.Gen.KernelIdeal.Points
import proofs.«416958_j58128087384233_1_alg».proof.Proof.Gen.KernelIdeal.Frame
import proofs.«416958_j58128087384233_1_alg».proof.Proof.Gen.ReferenceIdeal
import proofs.«416958_j58128087384233_1_alg».proof.Proof.Gen.Pre_finite_inputs
import proofs.«416958_j58128087384233_1_alg».proof.Proof.Gen.KernelIdeal.Value
import proofs.«416958_j58128087384233_1_alg».proof.Proof.Gen.ReferenceIdeal.Run
import proofs.«416958_j58128087384233_1_alg».proof.Proof.Accum
import proofs.«416958_j58128087384233_1_alg».proof.Proof.HostSide
import Idealize.ShloMosaic.Adequacy
import Idealize.ShloMosaic.Init

noncomputable section

namespace Cert.Proof

open Idealize.ShloMosaic Idealize.SL.Sem

/-- Both programs run from memories agreeing on the arguments and end with the result at `A · W + bias` of those
    arguments: the kernel by its accumulation over the grid, the reference by its one product. -/
theorem algebraic : Cert.algebraic_KernelIdeal_ReferenceIdeal := by
  intro m ρ m' ρ' _ hagree
  refine ⟨fun c => Cert.Spec.dotBias (m ((c.tc : Thread Cert.KernelIdeal.nD Cert.KernelIdeal.τ).loc Cert.KernelIdeal.main_arg0))
      (Cert.HostSide.deq (m ((c.tc : Thread Cert.KernelIdeal.nD Cert.KernelIdeal.τ).loc Cert.KernelIdeal.main_arg1)) (m ((c.tc : Thread Cert.KernelIdeal.nD Cert.KernelIdeal.τ).loc Cert.KernelIdeal.main_arg2)))
      (m ((c.tc : Thread Cert.KernelIdeal.nD Cert.KernelIdeal.τ).loc Cert.KernelIdeal.main_arg3)), ?_, ?_⟩
  · refine (θ_run Cert.KernelIdeal.defs _ _).mono (fun r h c => ⟨(h c).1.trans ?_, (h c).2⟩) (Cert.KernelValue.run m ρ)
    rw [Cert.HostSide.aArr_eq, Cert.HostSide.wArr_eq, Cert.HostSide.bArr_eq]
  · refine (θ_run Cert.ReferenceIdeal.defs _ _).mono (fun r h c => ⟨(h c).1.trans ?_, (h c).2⟩) (Cert.ReferenceIdeal.Value.run (F := Ideal) m' ρ')
    rw [(hagree c).1, (hagree c).2.1, (hagree c).2.2.1, (hagree c).2.2.2]
    exact Cert.HostSide.reference_eq _ _ _

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ,
  fun m ρ _ => Cert.KernelIdeal.Gen.frame m ρ,
  fun m ρ _ => (θ_run Cert.ReferenceIdeal.defs _ _).mono (fun _ h c => (h c).2) (Cert.ReferenceIdeal.Value.run (F := Ideal) m ρ),
  trivial,
  algebraic⟩

end Cert.Proof

end
